-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S512x512 : Shape := ⟨2, ![512, 512]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32x1024x1024 .f32) (main_arg1 : FVec F S512x512 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S32x1024x1024 : Shape := ⟨3, ![32, 1024, 1024]⟩
abbrev S512x512 : Shape := ⟨2, ![512, 512]⟩
abbrev S32x32x32x1024 : Shape := ⟨4, ![32, 32, 32, 1024]⟩
abbrev S32x32x2x32x512 : Shape := ⟨5, ![32, 32, 2, 32, 512]⟩
abbrev S1x32x32x1024 : Shape := ⟨4, ![1, 32, 32, 1024]⟩
abbrev S1x32x2x32x512 : Shape := ⟨5, ![1, 32, 2, 32, 512]⟩
abbrev S32x32x1024 : Shape := ⟨3, ![32, 32, 1024]⟩
abbrev S32x32x512 : Shape := ⟨3, ![32, 32, 512]⟩
abbrev S1024x512 : Shape := ⟨2, ![1024, 512]⟩
abbrev S1x32x512 : Shape := ⟨3, ![1, 32, 512]⟩
abbrev S32x512 : Shape := ⟨2, ![32, 512]⟩
abbrev S1x1x1x32x512 : Shape := ⟨5, ![1, 1, 1, 32, 512]⟩
abbrev S32x2048x512 : Shape := ⟨3, ![32, 2048, 512]⟩

abbrev nBuf : Space → Nat
  | .hbm => 5
  | .vmem => 5
  | .smem => 0
  | _ => 0

abbrev bufTy : (tb : Table) → Fin (tcTables nBuf tb) → BufTy
  | .hbm, ⟨0, _⟩ => ⟨S32x1024x1024, .f32⟩
  | .hbm, ⟨1, _⟩ => ⟨S512x512, .f32⟩
  | .hbm, ⟨2, _⟩ => ⟨S32x32x32x1024, .f32⟩
  | .hbm, ⟨3, _⟩ => ⟨S32x32x2x32x512, .f32⟩
  | .hbm, ⟨4, _⟩ => ⟨S32x2048x512, .f32⟩
  | .local _ .vmem, ⟨0, _⟩ => ⟨S1x32x32x1024, .f32⟩
  | .local _ .vmem, ⟨1, _⟩ => ⟨S1x32x32x1024, .f32⟩
  | .local _ .vmem, ⟨2, _⟩ => ⟨S512x512, .f32⟩
  | .local _ .vmem, ⟨3, _⟩ => ⟨S1x32x2x32x512, .f32⟩
  | .local _ .vmem, ⟨4, _⟩ => ⟨S1x32x2x32x512, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x32x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x2x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1024x1024_S32x32x32x1024 : S32x1024x1024.ShapeCasts S32x32x32x1024
  inb_S1x32x32x1024_S1x32x32x1024_0_0_0_0 : ∀ a, (![0, 0, 0, 0] : Fin 4 → Nat) a + S1x32x32x1024.size a ≤ S1x32x32x1024.size a
  h_S1x32x32x1024 : 0 < S1x32x32x1024.numel
  shapeCasts_S1x32x32x1024_S32x32x1024 : S1x32x32x1024.ShapeCasts S32x32x1024
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S32x32x1024_o0_0_0_S32x32x512 : S32x32x1024.Slices ![0, 0, 0] S32x32x512
  shapeCasts_S32x32x512_S1024x512 : S32x32x512.ShapeCasts S1024x512
  slices_S32x32x1024_o0_0_512_S32x32x512 : S32x32x1024.Slices ![0, 0, 512] S32x32x512
  shapeCasts_S1024x512_S32x32x512 : S1024x512.ShapeCasts S32x32x512
  slices_S32x32x512_o0_0_0_S1x32x512 : S32x32x512.Slices ![0, 0, 0] S1x32x512
  shapeCasts_S1x32x512_S32x512 : S1x32x512.ShapeCasts S32x512
  inb_S1x32x2x32x512_S1x1x1x32x512_0_0_0_0_0 : ∀ a, (![0, 0, 0, 0, 0] : Fin 5 → Nat) a + S1x1x1x32x512.size a ≤ S1x32x2x32x512.size a
  h_S1x1x1x32x512 : 0 < S1x1x1x32x512.numel
  shapeCasts_S1x1x1x32x512_S32x512 : S1x1x1x32x512.ShapeCasts S32x512
  shapeCasts_S32x512_S1x1x1x32x512 : S32x512.ShapeCasts S1x1x1x32x512
  inb_S1x32x2x32x512_S1x1x1x32x512_0_0_1_0_0 : ∀ a, (![0, 0, 1, 0, 0] : Fin 5 → Nat) a + S1x1x1x32x512.size a ≤ S1x32x2x32x512.size a
  slices_S32x32x512_o1_0_0_S1x32x512 : S32x32x512.Slices ![1, 0, 0] S1x32x512
  inb_S1x32x2x32x512_S1x1x1x32x512_0_1_0_0_0 : ∀ a, (![0, 1, 0, 0, 0] : Fin 5 → Nat) a + S1x1x1x32x512.size a ≤ S1x32x2x32x512.size a
  inb_S1x32x2x32x512_S1x1x1x32x512_0_1_1_0_0 : ∀ a, (![0, 1, 1, 0, 0] : Fin 5 → Nat) a + S1x1x1x32x512.size a ≤ S1x32x2x32x512.size a
  slices_S32x32x512_o2_0_0_S1x32x512 : S32x32x512.Slices ![2, 0, 0] S1x32x512
  inb_S1x32x2x32x512_S1x1x1x32x512_0_2_0_0_0 : ∀ a, (![0, 2, 0, 0, 0] : Fin 5 → Nat) a + S1x1x1x32x512.size a ≤ S1x32x2x32x512.size a
  inb_S1x32x2x32x512_S1x1x1x32x512_0_2_1_0_0 : ∀ a, (![0, 2, 1, 0, 0] : Fin 5 → Nat) a + S1x1x1x32x512.size a ≤ S1x32x2x32x512.size a
  slices_S32x32x512_o3_0_0_S1x32x512 : S32x32x512.Slices ![3, 0, 0] S1x32x512
  inb_S1x32x2x32x512_S1x1x1x32x512_0_3_0_0_0 : ∀ a, (![0, 3, 0, 0, 0] : Fin 5 → Nat) a + S1x1x1x32x512.size a ≤ S1x32x2x32x512.size a
  inb_S1x32x2x32x512_S1x1x1x32x512_0_3_1_0_0 : ∀ a, (![0, 3, 1, 0, 0] : Fin 5 → Nat) a + S1x1x1x32x512.size a ≤ S1x32x2x32x512.size a
  slices_S32x32x512_o4_0_0_S1x32x512 : S32x32x512.Slices ![4, 0, 0] S1x32x512
  inb_S1x32x2x32x512_S1x1x1x32x512_0_4_0_0_0 : ∀ a, (![0, 4, 0, 0, 0] : Fin 5 → Nat) a + S1x1x1x32x512.size a ≤ S1x32x2x32x512.size a
  inb_S1x32x2x32x512_S1x1x1x32x512_0_4_1_0_0 : ∀ a, (![0, 4, 1, 0, 0] : Fin 5 → Nat) a + S1x1x1x32x512.size a ≤ S1x32x2x32x512.size a
  slices_S32x32x512_o5_0_0_S1x32x512 : S32x32x512.Slices ![5, 0, 0] S1x32x512
  inb_S1x32x2x32x512_S1x1x1x32x512_0_5_0_0_0 : ∀ a, (![0, 5, 0, 0, 0] : Fin 5 → Nat) a + S1x1x1x32x512.size a ≤ S1x32x2x32x512.size a
  inb_S1x32x2x32x512_S1x1x1x32x512_0_5_1_0_0 : ∀ a, (![0, 5, 1, 0, 0] : Fin 5 → Nat) a + S1x1x1x32x512.size a ≤ S1x32x2x32x512.size a
  slices_S32x32x512_o6_0_0_S1x32x512 : S32x32x512.Slices ![6, 0, 0] S1x32x512
  inb_S1x32x2x32x512_S1x1x1x32x512_0_6_0_0_0 : ∀ a, (![0, 6, 0, 0, 0] : Fin 5 → Nat) a + S1x1x1x32x512.size a ≤ S1x32x2x32x512.size a
  inb_S1x32x2x32x512_S1x1x1x32x512_0_6_1_0_0 : ∀ a, (![0, 6, 1, 0, 0] : Fin 5 → Nat) a + S1x1x1x32x512.size a ≤ S1x32x2x32x512.size a
  slices_S32x32x512_o7_0_0_S1x32x512 : S32x32x512.Slices ![7, 0, 0] S1x32x512
  inb_S1x32x2x32x512_S1x1x1x32x512_0_7_0_0_0 : ∀ a, (![0, 7, 0, 0, 0] : Fin 5 → Nat) a + S1x1x1x32x512.size a ≤ S1x32x2x32x512.size a
  inb_S1x32x2x32x512_S1x1x1x32x512_0_7_1_0_0 : ∀ a, (![0, 7, 1, 0, 0] : Fin 5 → Nat) a + S1x1x1x32x512.size a ≤ S1x32x2x32x512.size a
  slices_S32x32x512_o8_0_0_S1x32x512 : S32x32x512.Slices ![8, 0, 0] S1x32x512
  inb_S1x32x2x32x512_S1x1x1x32x512_0_8_0_0_0 : ∀ a, (![0, 8, 0, 0, 0] : Fin 5 → Nat) a + S1x1x1x32x512.size a ≤ S1x32x2x32x512.size a
  inb_S1x32x2x32x512_S1x1x1x32x512_0_8_1_0_0 : ∀ a, (![0, 8, 1, 0, 0] : Fin 5 → Nat) a + S1x1x1x32x512.size a ≤ S1x32x2x32x512.size a
  slices_S32x32x512_o9_0_0_S1x32x512 : S32x32x512.Slices ![9, 0, 0] S1x32x512
  inb_S1x32x2x32x512_S1x1x1x32x512_0_9_0_0_0 : ∀ a, (![0, 9, 0, 0, 0] : Fin 5 → Nat) a + S1x1x1x32x512.size a ≤ S1x32x2x32x512.size a
  inb_S1x32x2x32x512_S1x1x1x32x512_0_9_1_0_0 : ∀ a, (![0, 9, 1, 0, 0] : Fin 5 → Nat) a + S1x1x1x32x512.size a ≤ S1x32x2x32x512.size a
  slices_S32x32x512_o10_0_0_S1x32x512 : S32x32x512.Slices ![10, 0, 0] S1x32x512
  inb_S1x32x2x32x512_S1x1x1x32x512_0_10_0_0_0 : ∀ a, (![0, 10, 0, 0, 0] : Fin 5 → Nat) a + S1x1x1x32x512.size a ≤ S1x32x2x32x512.size a
  inb_S1x32x2x32x512_S1x1x1x32x512_0_10_1_0_0 : ∀ a, (![0, 10, 1, 0, 0] : Fin 5 → Nat) a + S1x1x1x32x512.size a ≤ S1x32x2x32x512.size a
  slices_S32x32x512_o11_0_0_S1x32x512 : S32x32x512.Slices ![11, 0, 0] S1x32x512
  inb_S1x32x2x32x512_S1x1x1x32x512_0_11_0_0_0 : ∀ a, (![0, 11, 0, 0, 0] : Fin 5 → Nat) a + S1x1x1x32x512.size a ≤ S1x32x2x32x512.size a
  inb_S1x32x2x32x512_S1x1x1x32x512_0_11_1_0_0 : ∀ a, (![0, 11, 1, 0, 0] : Fin 5 → Nat) a + S1x1x1x32x512.size a ≤ S1x32x2x32x512.size a
  slices_S32x32x512_o12_0_0_S1x32x512 : S32x32x512.Slices ![12, 0, 0] S1x32x512
  inb_S1x32x2x32x512_S1x1x1x32x512_0_12_0_0_0 : ∀ a, (![0, 12, 0, 0, 0] : Fin 5 → Nat) a + S1x1x1x32x512.size a ≤ S1x32x2x32x512.size a
  inb_S1x32x2x32x512_S1x1x1x32x512_0_12_1_0_0 : ∀ a, (![0, 12, 1, 0, 0] : Fin 5 → Nat) a + S1x1x1x32x512.size a ≤ S1x32x2x32x512.size a
  slices_S32x32x512_o13_0_0_S1x32x512 : S32x32x512.Slices ![13, 0, 0] S1x32x512
  inb_S1x32x2x32x512_S1x1x1x32x512_0_13_0_0_0 : ∀ a, (![0, 13, 0, 0, 0] : Fin 5 → Nat) a + S1x1x1x32x512.size a ≤ S1x32x2x32x512.size a
  inb_S1x32x2x32x512_S1x1x1x32x512_0_13_1_0_0 : ∀ a, (![0, 13, 1, 0, 0] : Fin 5 → Nat) a + S1x1x1x32x512.size a ≤ S1x32x2x32x512.size a
  slices_S32x32x512_o14_0_0_S1x32x512 : S32x32x512.Slices ![14, 0, 0] S1x32x512
  inb_S1x32x2x32x512_S1x1x1x32x512_0_14_0_0_0 : ∀ a, (![0, 14, 0, 0, 0] : Fin 5 → Nat) a + S1x1x1x32x512.size a ≤ S1x32x2x32x512.size a
  inb_S1x32x2x32x512_S1x1x1x32x512_0_14_1_0_0 : ∀ a, (![0, 14, 1, 0, 0] : Fin 5 → Nat) a + S1x1x1x32x512.size a ≤ S1x32x2x32x512.size a
  slices_S32x32x512_o15_0_0_S1x32x512 : S32x32x512.Slices ![15, 0, 0] S1x32x512
  inb_S1x32x2x32x512_S1x1x1x32x512_0_15_0_0_0 : ∀ a, (![0, 15, 0, 0, 0] : Fin 5 → Nat) a + S1x1x1x32x512.size a ≤ S1x32x2x32x512.size a
  inb_S1x32x2x32x512_S1x1x1x32x512_0_15_1_0_0 : ∀ a, (![0, 15, 1, 0, 0] : Fin 5 → Nat) a + S1x1x1x32x512.size a ≤ S1x32x2x32x512.size a
  slices_S32x32x512_o16_0_0_S1x32x512 : S32x32x512.Slices ![16, 0, 0] S1x32x512
  inb_S1x32x2x32x512_S1x1x1x32x512_0_16_0_0_0 : ∀ a, (![0, 16, 0, 0, 0] : Fin 5 → Nat) a + S1x1x1x32x512.size a ≤ S1x32x2x32x512.size a
  inb_S1x32x2x32x512_S1x1x1x32x512_0_16_1_0_0 : ∀ a, (![0, 16, 1, 0, 0] : Fin 5 → Nat) a + S1x1x1x32x512.size a ≤ S1x32x2x32x512.size a
  slices_S32x32x512_o17_0_0_S1x32x512 : S32x32x512.Slices ![17, 0, 0] S1x32x512
  inb_S1x32x2x32x512_S1x1x1x32x512_0_17_0_0_0 : ∀ a, (![0, 17, 0, 0, 0] : Fin 5 → Nat) a + S1x1x1x32x512.size a ≤ S1x32x2x32x512.size a
  inb_S1x32x2x32x512_S1x1x1x32x512_0_17_1_0_0 : ∀ a, (![0, 17, 1, 0, 0] : Fin 5 → Nat) a + S1x1x1x32x512.size a ≤ S1x32x2x32x512.size a
  slices_S32x32x512_o18_0_0_S1x32x512 : S32x32x512.Slices ![18, 0, 0] S1x32x512
  inb_S1x32x2x32x512_S1x1x1x32x512_0_18_0_0_0 : ∀ a, (![0, 18, 0, 0, 0] : Fin 5 → Nat) a + S1x1x1x32x512.size a ≤ S1x32x2x32x512.size a
  inb_S1x32x2x32x512_S1x1x1x32x512_0_18_1_0_0 : ∀ a, (![0, 18, 1, 0, 0] : Fin 5 → Nat) a + S1x1x1x32x512.size a ≤ S1x32x2x32x512.size a
  slices_S32x32x512_o19_0_0_S1x32x512 : S32x32x512.Slices ![19, 0, 0] S1x32x512
  inb_S1x32x2x32x512_S1x1x1x32x512_0_19_0_0_0 : ∀ a, (![0, 19, 0, 0, 0] : Fin 5 → Nat) a + S1x1x1x32x512.size a ≤ S1x32x2x32x512.size a
  inb_S1x32x2x32x512_S1x1x1x32x512_0_19_1_0_0 : ∀ a, (![0, 19, 1, 0, 0] : Fin 5 → Nat) a + S1x1x1x32x512.size a ≤ S1x32x2x32x512.size a
  slices_S32x32x512_o20_0_0_S1x32x512 : S32x32x512.Slices ![20, 0, 0] S1x32x512
  inb_S1x32x2x32x512_S1x1x1x32x512_0_20_0_0_0 : ∀ a, (![0, 20, 0, 0, 0] : Fin 5 → Nat) a + S1x1x1x32x512.size a ≤ S1x32x2x32x512.size a
  inb_S1x32x2x32x512_S1x1x1x32x512_0_20_1_0_0 : ∀ a, (![0, 20, 1, 0, 0] : Fin 5 → Nat) a + S1x1x1x32x512.size a ≤ S1x32x2x32x512.size a
  slices_S32x32x512_o21_0_0_S1x32x512 : S32x32x512.Slices ![21, 0, 0] S1x32x512
  inb_S1x32x2x32x512_S1x1x1x32x512_0_21_0_0_0 : ∀ a, (![0, 21, 0, 0, 0] : Fin 5 → Nat) a + S1x1x1x32x512.size a ≤ S1x32x2x32x512.size a
  inb_S1x32x2x32x512_S1x1x1x32x512_0_21_1_0_0 : ∀ a, (![0, 21, 1, 0, 0] : Fin 5 → Nat) a + S1x1x1x32x512.size a ≤ S1x32x2x32x512.size a
  slices_S32x32x512_o22_0_0_S1x32x512 : S32x32x512.Slices ![22, 0, 0] S1x32x512
  inb_S1x32x2x32x512_S1x1x1x32x512_0_22_0_0_0 : ∀ a, (![0, 22, 0, 0, 0] : Fin 5 → Nat) a + S1x1x1x32x512.size a ≤ S1x32x2x32x512.size a
  inb_S1x32x2x32x512_S1x1x1x32x512_0_22_1_0_0 : ∀ a, (![0, 22, 1, 0, 0] : Fin 5 → Nat) a + S1x1x1x32x512.size a ≤ S1x32x2x32x512.size a
  slices_S32x32x512_o23_0_0_S1x32x512 : S32x32x512.Slices ![23, 0, 0] S1x32x512
  inb_S1x32x2x32x512_S1x1x1x32x512_0_23_0_0_0 : ∀ a, (![0, 23, 0, 0, 0] : Fin 5 → Nat) a + S1x1x1x32x512.size a ≤ S1x32x2x32x512.size a
  inb_S1x32x2x32x512_S1x1x1x32x512_0_23_1_0_0 : ∀ a, (![0, 23, 1, 0, 0] : Fin 5 → Nat) a + S1x1x1x32x512.size a ≤ S1x32x2x32x512.size a
  slices_S32x32x512_o24_0_0_S1x32x512 : S32x32x512.Slices ![24, 0, 0] S1x32x512
  inb_S1x32x2x32x512_S1x1x1x32x512_0_24_0_0_0 : ∀ a, (![0, 24, 0, 0, 0] : Fin 5 → Nat) a + S1x1x1x32x512.size a ≤ S1x32x2x32x512.size a
  inb_S1x32x2x32x512_S1x1x1x32x512_0_24_1_0_0 : ∀ a, (![0, 24, 1, 0, 0] : Fin 5 → Nat) a + S1x1x1x32x512.size a ≤ S1x32x2x32x512.size a
  slices_S32x32x512_o25_0_0_S1x32x512 : S32x32x512.Slices ![25, 0, 0] S1x32x512
  inb_S1x32x2x32x512_S1x1x1x32x512_0_25_0_0_0 : ∀ a, (![0, 25, 0, 0, 0] : Fin 5 → Nat) a + S1x1x1x32x512.size a ≤ S1x32x2x32x512.size a
  inb_S1x32x2x32x512_S1x1x1x32x512_0_25_1_0_0 : ∀ a, (![0, 25, 1, 0, 0] : Fin 5 → Nat) a + S1x1x1x32x512.size a ≤ S1x32x2x32x512.size a
  slices_S32x32x512_o26_0_0_S1x32x512 : S32x32x512.Slices ![26, 0, 0] S1x32x512
  inb_S1x32x2x32x512_S1x1x1x32x512_0_26_0_0_0 : ∀ a, (![0, 26, 0, 0, 0] : Fin 5 → Nat) a + S1x1x1x32x512.size a ≤ S1x32x2x32x512.size a
  inb_S1x32x2x32x512_S1x1x1x32x512_0_26_1_0_0 : ∀ a, (![0, 26, 1, 0, 0] : Fin 5 → Nat) a + S1x1x1x32x512.size a ≤ S1x32x2x32x512.size a
  slices_S32x32x512_o27_0_0_S1x32x512 : S32x32x512.Slices ![27, 0, 0] S1x32x512
  inb_S1x32x2x32x512_S1x1x1x32x512_0_27_0_0_0 : ∀ a, (![0, 27, 0, 0, 0] : Fin 5 → Nat) a + S1x1x1x32x512.size a ≤ S1x32x2x32x512.size a
  inb_S1x32x2x32x512_S1x1x1x32x512_0_27_1_0_0 : ∀ a, (![0, 27, 1, 0, 0] : Fin 5 → Nat) a + S1x1x1x32x512.size a ≤ S1x32x2x32x512.size a
  slices_S32x32x512_o28_0_0_S1x32x512 : S32x32x512.Slices ![28, 0, 0] S1x32x512
  inb_S1x32x2x32x512_S1x1x1x32x512_0_28_0_0_0 : ∀ a, (![0, 28, 0, 0, 0] : Fin 5 → Nat) a + S1x1x1x32x512.size a ≤ S1x32x2x32x512.size a
  inb_S1x32x2x32x512_S1x1x1x32x512_0_28_1_0_0 : ∀ a, (![0, 28, 1, 0, 0] : Fin 5 → Nat) a + S1x1x1x32x512.size a ≤ S1x32x2x32x512.size a
  slices_S32x32x512_o29_0_0_S1x32x512 : S32x32x512.Slices ![29, 0, 0] S1x32x512
  inb_S1x32x2x32x512_S1x1x1x32x512_0_29_0_0_0 : ∀ a, (![0, 29, 0, 0, 0] : Fin 5 → Nat) a + S1x1x1x32x512.size a ≤ S1x32x2x32x512.size a
  inb_S1x32x2x32x512_S1x1x1x32x512_0_29_1_0_0 : ∀ a, (![0, 29, 1, 0, 0] : Fin 5 → Nat) a + S1x1x1x32x512.size a ≤ S1x32x2x32x512.size a
  slices_S32x32x512_o30_0_0_S1x32x512 : S32x32x512.Slices ![30, 0, 0] S1x32x512
  inb_S1x32x2x32x512_S1x1x1x32x512_0_30_0_0_0 : ∀ a, (![0, 30, 0, 0, 0] : Fin 5 → Nat) a + S1x1x1x32x512.size a ≤ S1x32x2x32x512.size a
  inb_S1x32x2x32x512_S1x1x1x32x512_0_30_1_0_0 : ∀ a, (![0, 30, 1, 0, 0] : Fin 5 → Nat) a + S1x1x1x32x512.size a ≤ S1x32x2x32x512.size a
  slices_S32x32x512_o31_0_0_S1x32x512 : S32x32x512.Slices ![31, 0, 0] S1x32x512
  inb_S1x32x2x32x512_S1x1x1x32x512_0_31_0_0_0 : ∀ a, (![0, 31, 0, 0, 0] : Fin 5 → Nat) a + S1x1x1x32x512.size a ≤ S1x32x2x32x512.size a
  inb_S1x32x2x32x512_S1x1x1x32x512_0_31_1_0_0 : ∀ a, (![0, 31, 1, 0, 0] : Fin 5 → Nat) a + S1x1x1x32x512.size a ≤ S1x32x2x32x512.size a
  shapeCasts_S32x32x2x32x512_S32x2048x512 : S32x32x2x32x512.ShapeCasts S32x2048x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x1024.size a ≤ S32x32x32x1024.size a
  hwx0_0 : ∀ i : grid0.Coords, EltTy.bits .f32 = 32 ∨ (Rect.block (s := S32x32x32x1024) S1x32x32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x2x32x512.size a ≤ S32x32x2x32x512.size a
  hwx0_2 : ∀ i : grid0.Coords, EltTy.bits .f32 = 32 ∨ (Rect.block (s := S32x32x2x32x512) S1x32x2x32x512.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1x32x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x2x32x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S512x512 : Shape := ⟨2, ![512, 512]⟩
abbrev S32x32x32x1024 : Shape := ⟨4, ![32, 32, 32, 1024]⟩
abbrev S32x32x32x512 : Shape := ⟨4, ![32, 32, 32, 512]⟩
abbrev S32x32x1x32x512 : Shape := ⟨5, ![32, 32, 1, 32, 512]⟩
abbrev S32x32x2x32x512 : Shape := ⟨5, ![32, 32, 2, 32, 512]⟩
abbrev S32x64x32x512 : Shape := ⟨4, ![32, 64, 32, 512]⟩
abbrev S32x2048x512 : Shape := ⟨3, ![32, 2048, 512]⟩

abbrev nBuf : Space → Nat
  | .hbm => 11
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S512x512, .f32⟩
  | .hbm, ⟨2, _⟩ => ⟨S32x32x32x1024, .f32⟩
  | .hbm, ⟨3, _⟩ => ⟨S32x32x32x512, .f32⟩
  | .hbm, ⟨4, _⟩ => ⟨S32x32x32x512, .f32⟩
  | .hbm, ⟨5, _⟩ => ⟨S32x32x1x32x512, .f32⟩
  | .hbm, ⟨6, _⟩ => ⟨S32x32x1x32x512, .f32⟩
  | .hbm, ⟨7, _⟩ => ⟨S32x32x2x32x512, .f32⟩
  | .hbm, ⟨8, _⟩ => ⟨S32x64x32x512, .f32⟩
  | .hbm, ⟨9, _⟩ => ⟨S32x64x32x512, .f32⟩
  | .hbm, ⟨10, _⟩ => ⟨S32x2048x512, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S32x1024x1024_S32x32x32x1024 : S32x1024x1024.ShapeCasts S32x32x32x1024
  slices_S32x32x32x1024_S32x32x32x512_0_0_0_0 : S32x32x32x1024.Slices ![0, 0, 0, 0] S32x32x32x512
  slices_S32x32x32x1024_S32x32x32x512_0_0_0_512 : S32x32x32x1024.Slices ![0, 0, 0, 512] S32x32x32x512
  bcast_S32x32x32x512_S32x32x1x32x512_0_1_3_4 : S32x32x32x512.BroadcastsInDim S32x32x1x32x512 (![0, 1, 3, 4] : Fin 4 → Fin S32x32x1x32x512.rank)
  concatenates_S32x32x1x32x512_S32x32x1x32x512_S32x32x2x32x512_d2 : Shape.Concatenates [S32x32x1x32x512, S32x32x1x32x512] S32x32x2x32x512 2
  shapeCasts_S32x32x2x32x512_S32x64x32x512 : S32x32x2x32x512.ShapeCasts S32x64x32x512
  shapeCasts_S32x64x32x512_S32x2048x512 : S32x64x32x512.ShapeCasts S32x2048x512
  dot_S32x64x32x512_S512x512_S32x64x32x512_3_0_012_1_n_n_wf : DotDims.WF S32x64x32x512 S512x512 S32x64x32x512 [3] [0] [0, 1, 2] [1] [] []

variable [Facts₀]

def dot_S32x64x32x512_S512x512_S32x64x32x512_3_0_012_1_n_n : DotDims S32x64x32x512 S512x512 S32x64x32x512 where
  lhsContracting := [3]
  rhsContracting := [0]
  lhsNonContracting := [0, 1, 2]
  rhsNonContracting := [1]
  lhsBatch := []
  rhsBatch := []
  wf := dot_S32x64x32x512_S512x512_S32x64x32x512_3_0_012_1_n_n_wf

class Facts : Prop extends Facts₀ where

variable [Facts]
-- ==== Proof.Spec.lean ====
/-
  What both programs compute, as one function of the two inputs.

  The tokens x are [32, 1024, 1024]: batch b, position 32·h + w on a 32 × 32 grid of patches, channel c. The weight W is
  [512, 512]. The channels split into a lower half (c < 512) and an upper half (c ≥ 512), and each half is projected by
  the same W. The output interleaves the two halves row by row of the patch grid: grouped entry (b, h, u, w, d) is

      ∑ k < 512,  x (b, 32·h + w, 512·u + k) · W (k, d),

  and the result [32, 2048, 512] is that five-axis array with (h, u, w) merged row-major into one axis, 64·h + 32·u + w.
  Only sums of products occur, in one order on both sides, so no law that fails at the infinities is used.
-/
import Idealize.ShloMosaic.Lib.ValueIdx
import Idealize.ShloMosaic.PureOps.Ideal

noncomputable section

namespace Cert.Spec

open Idealize.ShloMosaic Idealize.ShloMosaic.ValueIdx

abbrev Tokens : Shape := ⟨3, ![32, 1024, 1024]⟩
abbrev Weight : Shape := ⟨2, ![512, 512]⟩
abbrev Grouped : Shape := ⟨5, ![32, 32, 2, 32, 512]⟩
abbrev Result : Shape := ⟨3, ![32, 2048, 512]⟩

/-- The token a grouped entry reads at contraction position `k`: batch b, position 32·h + w, channel 512·u + k. -/
abbrev tokenIdx (j : Grouped.Idx) (k : Fin 512) : Tokens.Idx :=
  ix3 (⟨(j 0).val, (j 0).isLt⟩ : Fin 32)
    (⟨(j 1).val * 32 + (j 3).val, by have h1 : (j 1).val < 32 := (j 1).isLt; have h3 : (j 3).val < 32 := (j 3).isLt; omega⟩ : Fin 1024)
    (⟨(j 2).val * 512 + k.val, by have h2 : (j 2).val < 2 := (j 2).isLt; omega⟩ : Fin 1024)

/-- Both halves of the channels projected by `W`, grouped by (batch, patch row, half, patch column, output channel). -/
def mixed (x : FVec Ideal Tokens .f32) (W : FVec Ideal Weight .f32) : FVec Ideal Grouped .f32 :=
  fun j => ∑ k : Fin 512, x (tokenIdx j k) * W (ix2 k (⟨(j 4).val, (j 4).isLt⟩ : Fin 512))

theorem regroup : Grouped.ShapeCasts Result := by decide

/-- The result: the grouped array with (patch row, half, patch column) merged into one axis. -/
def result (x : FVec Ideal Tokens .f32) (W : FVec Ideal Weight .f32) : FVec Ideal Result .f32 :=
  shapeCast Result (mixed x W) regroup

end Cert.Spec

end
-- ==== Proof.HalfProduct.lean ====
/-
  The kernel body's two products, entry by entry, at the ideal instance.

  The body loads one batch element's tokens as a [1, 32, 32, 1024] block (rows h, columns w, channels c) and the
  [512, 512] weight. It cuts the channels into the lower half (c < 512) and the upper half (c ≥ 512), flattens each
  half to a [1024, 512] matrix whose row is 32·h + w, and multiplies it with the weight into a zero accumulator.
  The change to bf16 before the product is the identity on extended reals, so entry (h, w, d) of either product is
  the plain sum over k < 512 of token (h, w, o + k) times weight (k, d), with o = 0 for the lower half and
  o = 512 for the upper.
-/
import proofs.«101255_j66881230733751_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.HalfProduct

open Cert.KernelIdeal Cert.KernelIdeal.Gen Idealize.ShloMosaic Idealize.ShloMosaic.TcCoe Idealize.ShloMosaic.ValueIdx

/-! ## The product's operand indices: output (r, d), contraction position k ↦ left (r, k), right (k, d) -/

theorem lhs_axis0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_axis1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_axis0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_axis1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A [1024, 512] by [512, 512] product into the zero accumulator, at (r, d): the sum over k of left (r, k) times
    right (k, d). -/
theorem product_apply (A : FVec Ideal S1024x512 .bf16) (B : FVec Ideal S512x512 .bf16) (r : Fin 1024) (d : Fin 512) :
    matmul dot_S1024x512_S512x512_S1024x512_1_0_0_1_n_n none A B (constant S1024x512 .f32 0x00000000#32) (ix2 r d)
      = ∑ k : Fin 512, A (ix2 r k) * B (ix2 k d) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 r d) ((ValueIdx.contrEquiv1 dot_S1024x512_S512x512_S1024x512_1_0_0_1_n_n 512 rfl rfl).symm k) = ix2 r k := funext fun a => Fin.ext (by
    match a with
    | ⟨0, _⟩ => exact lhs_axis0 _ _
    | ⟨1, _⟩ => exact (lhs_axis1 _ _).trans hk)
  have er : dot_S1024x512_S512x512_S1024x512_1_0_0_1_n_n.rhsIdx (ix2 r d) ((ValueIdx.contrEquiv1 dot_S1024x512_S512x512_S1024x512_1_0_0_1_n_n 512 rfl rfl).symm k) = ix2 k d := funext fun a => Fin.ext (by
    match a with
    | ⟨0, _⟩ => exact (rhs_axis0 _ _).trans hk
    | ⟨1, _⟩ => exact rhs_axis1 _ _)
  rw [el, er]

/-- One half of the channels, flattened: entry (32·h + w, k) of the [1024, 512] matrix is token (0, h, w, o + k). -/
theorem half_apply (o : Nat) (x0 : Vec Ideal S1x32x32x1024 .f32) (hs : S32x32x1024.Slices ![0, 0, o] S32x32x512)
    (h w : Fin 32) (k : Fin 512) (ho : o + 512 ≤ 1024) :
    shapeCast S1024x512 (extractStridedSlice S32x32x512 ![0, 0, o] (k0_pay2 x0) hs) shapeCasts_S32x32x512_S1024x512
        (ix2 (⟨h.val * 32 + w.val, by omega⟩ : Fin 1024) k)
      = x0 (ix4 (0 : Fin 1) h w (⟨o + k.val, by omega⟩ : Fin 1024)) := by
  refine (shapeCast_apply _ shapeCasts_S32x32x512_S1024x512 _ (ix3 h w k) (by
    rw [Shape.rowMajor_val_three, Shape.rowMajor_val_two]; rfl)).trans ?_
  refine (extractStridedSlice_apply ![0, 0, o] _ hs _ (ix3 h w (⟨o + k.val, by omega⟩ : Fin 1024)) (fun a => match a with
    | ⟨0, _⟩ => by show h.val = 0 + h.val; omega
    | ⟨1, _⟩ => by show w.val = 0 + w.val; omega
    | ⟨2, _⟩ => by show o + k.val = o + k.val; rfl)).trans ?_
  unfold k0_pay2
  show shapeCast S32x32x1024 x0 shapeCasts_S1x32x32x1024_S32x32x1024 (ix3 h w (⟨o + k.val, by omega⟩ : Fin 1024)) = _
  exact shapeCast_apply x0 shapeCasts_S1x32x32x1024_S32x32x1024 _ _ (by
    rw [Shape.rowMajor_val_four, Shape.rowMajor_val_three]
    show ((0 * 32 + h.val) * 32 + w.val) * 1024 + (o + k.val) = (h.val * 32 + w.val) * 1024 + (o + k.val)
    omega)

/-- The lower-half product at (h, w, d). -/
theorem lower_apply (x0 : Vec Ideal S1x32x32x1024 .f32) (x1 : Vec Ideal S512x512 .f32) (h w : Fin 32) (d : Fin 512) :
    k0_pay4 x0 x1 (ix3 h w d)
      = ∑ k : Fin 512, x0 (ix4 (0 : Fin 1) h w (⟨0 + k.val, by omega⟩ : Fin 1024)) * x1 (ix2 k d) := by
  unfold k0_pay4
  refine (shapeCast_apply _ shapeCasts_S1024x512_S32x32x512 _ (ix2 (⟨h.val * 32 + w.val, by omega⟩ : Fin 1024) d) (by
    rw [Shape.rowMajor_val_three, Shape.rowMajor_val_two]; rfl)).trans ?_
  rw [product_apply]
  refine Finset.sum_congr rfl fun k _ => ?_
  rw [half_apply 0 x0 _ h w k (by omega)]
  rfl

/-- The upper-half product at (h, w, d). -/
theorem upper_apply (x0 : Vec Ideal S1x32x32x1024 .f32) (x1 : Vec Ideal S512x512 .f32) (h w : Fin 32) (d : Fin 512) :
    k0_pay5 x0 x1 (ix3 h w d)
      = ∑ k : Fin 512, x0 (ix4 (0 : Fin 1) h w (⟨512 + k.val, by omega⟩ : Fin 1024)) * x1 (ix2 k d) := by
  unfold k0_pay5
  refine (shapeCast_apply _ shapeCasts_S1024x512_S32x32x512 _ (ix2 (⟨h.val * 32 + w.val, by omega⟩ : Fin 1024) d) (by
    rw [Shape.rowMajor_val_three, Shape.rowMajor_val_two]; rfl)).trans ?_
  rw [product_apply]
  refine Finset.sum_congr rfl fun k _ => ?_
  rw [half_apply 512 x0 _ h w k (by omega)]
  rfl

end Cert.KernelIdeal.HalfProduct

end
-- ==== Proof.RowStores.lean ====
/-
  The body's 64 stores, read together.

  After the two products Y0 (lower half of the channels) and Y1 (upper half), each [32, 32, 512], the body walks the
  32 rows h and stores row h of Y0 into slot (h, 0) and row h of Y1 into slot (h, 1) of the [1, 32, 2, 32, 512]
  output block. Every store's value is a row cut out of a product and recast to [1, 1, 1, 32, 512]; the 64 slots
  tile the block. So the block the body leaves is, entry (0, h, u, w, d): product u at (h, w, d).
-/
import proofs.«101255_j66881230733751_1_alg».proof.Proof.Gen.KernelIdeal.Frame
import Idealize.ShloMosaic.Lib.ValueIdx
import Idealize.ShloMosaic.Lib.Pipeline.Value

set_option maxRecDepth 16384

noncomputable section

namespace Cert.KernelIdeal.RowStores

open Cert.KernelIdeal Cert.KernelIdeal.Gen Idealize.ShloMosaic Idealize.ShloMosaic.TcCoe Idealize.ShloMosaic.ValueIdx

variable {F : FTy → Type} [FloatOps F]

/-- Two [32, 32, 512] arrays interleaved along a new axis of extent 2 after the rows: entry (0, h, u, w, d) is entry
    (h, w, d) of the first array when u = 0 and of the second when u = 1. -/
def interleave (Y0 Y1 : FVec F S32x32x512 .f32) : Vec F S1x32x2x32x512 .f32 :=
  fun j => if (j 2).val = 0 then Y0 (ix3 (j 1) (j 3) (j 4)) else Y1 (ix3 (j 1) (j 3) (j 4))

/-- One store: row `h` cut out of `Y` and recast to the slot's shape, at the slot's local index `x`, is the
    interleaved array at the block index the slot (h, u) places `x` at — when `Y` is the array that slot `u` takes. -/
theorem store_eq (h u : Nat) (Y0 Y1 Y : FVec F S32x32x512 .f32) (hY : Y = if u = 0 then Y0 else Y1)
    (hs : S32x32x512.Slices ![h, 0, 0] S1x32x512)
    (inb : ∀ a, (![0, h, u, 0, 0] : Fin 5 → Nat) a + S1x1x1x32x512.size a ≤ S1x32x2x32x512.size a)
    (x : S1x1x1x32x512.Idx) :
    shapeCast S1x1x1x32x512 (shapeCast S32x512 (extractStridedSlice S1x32x512 ![h, 0, 0] Y hs) shapeCasts_S1x32x512_S32x512)
        shapeCasts_S32x512_S1x1x1x32x512 x
      = interleave Y0 Y1 ((Rect.unit (s := S1x32x2x32x512) ![0, h, u, 0, 0] S1x1x1x32x512.size inb).emb x) := by
  have hh : h + 1 ≤ 32 := inb 1
  have hu : u + 1 ≤ 2 := inb 2
  have x0 : (x 0).val < 1 := (x 0).isLt
  have x1 : (x 1).val < 1 := (x 1).isLt
  have x2 : (x 2).val < 1 := (x 2).isLt
  have x3 : (x 3).val < 32 := (x 3).isLt
  have x4 : (x 4).val < 512 := (x 4).isLt
  refine (shapeCast_apply _ shapeCasts_S32x512_S1x1x1x32x512 x (ix2 (⟨(x 3).val, x3⟩ : Fin 32) (⟨(x 4).val, x4⟩ : Fin 512)) (by
    rw [Shape.rowMajor_val_two, Shape.rowMajor_val_five]
    show (x 3).val * 512 + (x 4).val = ((((x 0).val * 1 + (x 1).val) * 1 + (x 2).val) * 32 + (x 3).val) * 512 + (x 4).val
    omega)).trans ?_
  refine (shapeCast_apply _ shapeCasts_S1x32x512_S32x512 _ (ix3 (0 : Fin 1) (⟨(x 3).val, x3⟩ : Fin 32) (⟨(x 4).val, x4⟩ : Fin 512)) (by
    rw [Shape.rowMajor_val_three, Shape.rowMajor_val_two]
    show (0 * 32 + (x 3).val) * 512 + (x 4).val = (x 3).val * 512 + (x 4).val
    omega)).trans ?_
  refine (extractStridedSlice_apply ![h, 0, 0] Y hs _ (ix3 (⟨h, by omega⟩ : Fin 32) (⟨(x 3).val, x3⟩ : Fin 32) (⟨(x 4).val, x4⟩ : Fin 512)) (fun a => match a with
    | ⟨0, _⟩ => by show h = h + 0; omega
    | ⟨1, _⟩ => by show (x 3).val = 0 + (x 3).val; omega
    | ⟨2, _⟩ => by show (x 4).val = 0 + (x 4).val; omega)).trans ?_
  unfold interleave
  have e : ∀ Z : FVec F S32x32x512 .f32, Z (ix3 (⟨h, by omega⟩ : Fin 32) (⟨(x 3).val, x3⟩ : Fin 32) (⟨(x 4).val, x4⟩ : Fin 512))
      = Z (ix3 ((Rect.unit (s := S1x32x2x32x512) ![0, h, u, 0, 0] S1x1x1x32x512.size inb).emb x 1)
            ((Rect.unit (s := S1x32x2x32x512) ![0, h, u, 0, 0] S1x1x1x32x512.size inb).emb x 3)
            ((Rect.unit (s := S1x32x2x32x512) ![0, h, u, 0, 0] S1x1x1x32x512.size inb).emb x 4)) := fun Z =>
    congrArg Z (funext fun a => Fin.ext (by
      match a with
      | ⟨0, _⟩ => show h = h + 1 * (x 1).val; omega
      | ⟨1, _⟩ => show (x 3).val = 0 + 1 * (x 3).val; omega
      | ⟨2, _⟩ => show (x 4).val = 0 + 1 * (x 4).val; omega))
  have e2 : ((Rect.unit (s := S1x32x2x32x512) ![0, h, u, 0, 0] S1x1x1x32x512.size inb).emb x 2).val = u := by
    show u + 1 * (x 2).val = u; omega
  rw [e2, hY]
  by_cases h0 : u = 0
  · rw [if_pos h0, if_pos h0]; exact e Y0
  · rw [if_neg h0, if_neg h0]; exact e Y1

/-- A lower-half store: slot (h, 0) takes row `h` of the first array. -/
theorem store_lower (h : Nat) (Y0 Y1 : FVec F S32x32x512 .f32) (hs : S32x32x512.Slices ![h, 0, 0] S1x32x512)
    (inb : ∀ a, (![0, h, 0, 0, 0] : Fin 5 → Nat) a + S1x1x1x32x512.size a ≤ S1x32x2x32x512.size a)
    (x : S1x1x1x32x512.Idx) :
    shapeCast S1x1x1x32x512 (shapeCast S32x512 (extractStridedSlice S1x32x512 ![h, 0, 0] Y0 hs) shapeCasts_S1x32x512_S32x512)
        shapeCasts_S32x512_S1x1x1x32x512 x
      = interleave Y0 Y1 ((Rect.unit (s := S1x32x2x32x512) ![0, h, 0, 0, 0] S1x1x1x32x512.size inb).emb x) :=
  store_eq h 0 Y0 Y1 Y0 rfl hs inb x

/-- An upper-half store: slot (h, 1) takes row `h` of the second array. -/
theorem store_upper (h : Nat) (Y0 Y1 : FVec F S32x32x512 .f32) (hs : S32x32x512.Slices ![h, 0, 0] S1x32x512)
    (inb : ∀ a, (![0, h, 1, 0, 0] : Fin 5 → Nat) a + S1x1x1x32x512.size a ≤ S1x32x2x32x512.size a)
    (x : S1x1x1x32x512.Idx) :
    shapeCast S1x1x1x32x512 (shapeCast S32x512 (extractStridedSlice S1x32x512 ![h, 0, 0] Y1 hs) shapeCasts_S1x32x512_S32x512)
        shapeCasts_S32x512_S1x1x1x32x512 x
      = interleave Y0 Y1 ((Rect.unit (s := S1x32x2x32x512) ![0, h, 1, 0, 0] S1x1x1x32x512.size inb).emb x) :=
  store_eq h 1 Y0 Y1 Y1 rfl hs inb x

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- THE BLOCK THE BODY LEAVES: the two products of the loaded blocks, interleaved. Each of the 64 stores is one
    row of one product (`store_eq`), and the stores cover the block. -/
theorem out_eq (x0 : Vec F S1x32x32x1024 .f32) (x1 : Vec F S512x512 .f32) :
    out0_2 x0 x1 = interleave (k0_pay4 x0 x1) (k0_pay5 x0 x1) := by
  funext y
  unfold out0_2
  rw [View.ld_unit_zero (S := S1x32x32x1024) zeros4, View.ld_unit_zero (S := S512x512) zeros2]
  refine View.canon_apply_of_pieces (interleave (k0_pay4 x0 x1) (k0_pay5 x0 x1)) _ ?_ y (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals first | exact store_lower (F := F) _ (k0_pay4 x0 x1) (k0_pay5 x0 x1) (by decide) (by decide) | exact store_upper (F := F) _ (k0_pay4 x0 x1) (k0_pay5 x0 x1) (by decide) (by decide)

end Cert.KernelIdeal.RowStores

end
-- ==== Proof.OutputArray.lean ====
/-
  From the body's block to the kernel's result array.

  Grid point t is batch element t. It reads block (t, 0, 0, 0) of the tokens viewed as [32, 32, 32, 1024] (the host's
  reshape of the argument before the call: entry (b, h, w, c) is token (b, 32·h + w, c)) and the whole weight, and writes
  block (t, 0, 0, 0, 0) of the [32, 32, 2, 32, 512] output. The body leaves the two half products interleaved, so entry
  (t, h, u, w, d) of the output array is the sum over k of token (t, 32·h + w, 512·u + k) times weight (k, d): the
  specification's grouped array. The 32 blocks tile the array, and the host's reshape after the call merges (h, u, w).
-/
import proofs.«101255_j66881230733751_1_alg».proof.Proof.Gen.KernelIdeal.Frame
import proofs.«101255_j66881230733751_1_alg».proof.Proof.HalfProduct
import proofs.«101255_j66881230733751_1_alg».proof.Proof.RowStores
import proofs.«101255_j66881230733751_1_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.OutputArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The tokens argument and the weight argument as the kernel is launched with them. -/
abbrev tokens (c : Dev nD) : FVec Ideal Cert.Spec.Tokens .f32 := m ((c : Thread nD τ).loc main_arg0)
abbrev weight (c : Dev nD) : FVec Ideal Cert.Spec.Weight .f32 := m ((c : Thread nD τ).loc main_arg1)

/-! ## The body's block, entry by entry -/

/-- Entry (0, h, u, w, d) of the block the body leaves: the sum over k of the token block at (0, h, w, 512·u + k) times the
    weight block at (k, d). -/
theorem block_entry (X : Vec Ideal S1x32x32x1024 .f32) (Wt : Vec Ideal S512x512 .f32) (z : Fin 1) (h : Fin 32) (u : Fin 2) (w : Fin 32) (d : Fin 512) :
    RowStores.interleave (k0_pay4 X Wt) (k0_pay5 X Wt) (ix5 z h u w d)
      = ∑ k : Fin 512, X (ix4 (0 : Fin 1) h w (⟨u.val * 512 + k.val, by omega⟩ : Fin 1024)) * Wt (ix2 k d) := by
  unfold RowStores.interleave
  by_cases hu : u.val = 0
  · rw [if_pos (show ((ix5 z h u w d : S1x32x2x32x512.Idx) 2).val = 0 from hu)]
    refine (HalfProduct.lower_apply X Wt h w d).trans (Finset.sum_congr rfl fun k _ => ?_)
    exact congrArg (fun i => X i * Wt (ix2 k d)) (funext fun a => Fin.ext (by
      match a with
      | ⟨0, _⟩ => rfl
      | ⟨1, _⟩ => rfl
      | ⟨2, _⟩ => rfl
      | ⟨3, _⟩ => show 0 + k.val = u.val * 512 + k.val; omega))
  · have hu1 : u.val = 1 := by omega
    rw [if_neg (show ¬((ix5 z h u w d : S1x32x2x32x512.Idx) 2).val = 0 from hu)]
    refine (HalfProduct.upper_apply X Wt h w d).trans (Finset.sum_congr rfl fun k _ => ?_)
    exact congrArg (fun i => X i * Wt (ix2 k d)) (funext fun a => Fin.ext (by
      match a with
      | ⟨0, _⟩ => rfl
      | ⟨1, _⟩ => rfl
      | ⟨2, _⟩ => rfl
      | ⟨3, _⟩ => show 512 + k.val = u.val * 512 + k.val; omega))

/-! ## The arrays the region finds, and the blocks it reads -/

/-- The token window's array is the host's reshape of the tokens argument. -/
theorem grid_eq (c : Dev nD) :
    (V m c main_v0 : S32x32x32x1024.Idx → EReal) = shapeCast S32x32x32x1024 (tokens m c) shapeCasts_S32x1024x1024_S32x32x32x1024 := by
  show StableHlo.after hostOps0 (fun b => m (c, b)) (Proc.devRef .tc main_v0) = _
  after_results
  rfl

/-- The index maps over the grid: the token window and the output window move along their first axis with the point and
    sit at block 0 on every other axis; the weight window is the whole weight at every point. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 5) = t.val ∧ win0_2.index t (1 : Fin 5) = 0 ∧ win0_2.index t (2 : Fin 5) = 0
    ∧ win0_2.index t (3 : Fin 5) = 0 ∧ win0_2.index t (4 : Fin 5) = 0 :=
  (by decide +kernel : ∀ t : Fin grid0.N, _)

theorem t_lt (t : Fin cfg0.N) : t.val < 32 := t.isLt

/-- The token block at point t: entry (0, h, w, c) is token (t, 32·h + w, c). -/
theorem token_block (c : Dev nD) (t : Fin cfg0.N) (z : Fin 1) (h w : Fin 32) (cc : Fin 1024) :
    (iblk m c 0 t : Vec Ideal S1x32x32x1024 .f32) (ix4 z h w cc)
      = tokens m c (ix3 (⟨t.val, t_lt t⟩ : Fin 32) (⟨h.val * 32 + w.val, by omega⟩ : Fin 1024) cc) := by
  obtain ⟨e0, e1, e2, e3, -⟩ := idx_facts t
  have ht := t_lt t
  unfold iblk
  rw [View.read_apply]
  show V m c main_v0 _ = _
  rw [grid_eq]
  refine shapeCast_apply _ shapeCasts_S32x1024x1024_S32x32x32x1024 _ _ ?_
  rw [Shape.rowMajor_val_three, Shape.rowMajor_val_four]
  show (t.val * 1024 + (h.val * 32 + w.val)) * 1024 + cc.val
    = (((win0_0.index t (0 : Fin 4) * 1 + 1 * z.val) * 32 + (win0_0.index t (1 : Fin 4) * 32 + 1 * h.val)) * 32
        + (win0_0.index t (2 : Fin 4) * 32 + 1 * w.val)) * 1024 + (win0_0.index t (3 : Fin 4) * 1024 + 1 * cc.val)
  rw [e0, e1, e2, e3]
  omega

/-- The weight block at every point is the weight. -/
theorem weight_block (c : Dev nD) (t : Fin cfg0.N) (k d : Fin 512) :
    (iblk m c 1 t : Vec Ideal S512x512 .f32) (ix2 k d) = weight m c (ix2 k d) := by
  obtain ⟨-, -, -, -, e4, e5, -⟩ := idx_facts t
  unfold iblk
  rw [View.read_apply]
  show V m c main_arg1 _ = _
  rw [V_main_arg1]
  refine congrArg (weight m c) (funext fun a => Fin.ext ?_)
  match a with
  | ⟨0, _⟩ => show win0_1.index t (0 : Fin 2) * 512 + 1 * k.val = k.val; rw [e4]; omega
  | ⟨1, _⟩ => show win0_1.index t (1 : Fin 2) * 512 + 1 * d.val = d.val; rw [e5]; omega

/-! ## What a point writes back, the cover, the final array -/

/-- WHAT POINT t WRITES BACK is block t of the specification's grouped array. -/
theorem flushed_eq (c : Dev nD) (t : Fin cfg0.N) :
    (dats m 0 c).flushed 2 t = ((cfg0.win 2).blk t).view.read (Elt Ideal) (Cert.Spec.mixed (tokens m c) (weight m c)) := by
  show (cfg0.win 2).cut (grid0.coords t) ((dats m 0 c).after 2 t) = _
  rw [after0_2, RowStores.out_eq]
  obtain ⟨-, -, -, -, -, -, e6, e7, e8, e9, e10⟩ := idx_facts t
  have ht := t_lt t
  funext y
  obtain ⟨z, h, u, w, d, rfl⟩ : ∃ (z : Fin 1) (h : Fin 32) (u : Fin 2) (w : Fin 32) (d : Fin 512), y = ix5 z h u w d :=
    ⟨y 0, y 1, y 2, y 3, y 4, eq_ix5 y⟩
  have hz : z.val < 1 := z.isLt
  show RowStores.interleave (k0_pay4 (iblk m c 0 t) (iblk m c 1 t)) (k0_pay5 (iblk m c 0 t) (iblk m c 1 t)) (ix5 z h u w d)
    = Cert.Spec.mixed (tokens m c) (weight m c) (((cfg0.win 2).blk t).view.emb (ix5 z h u w d))
  refine (block_entry (iblk m c 0 t) (iblk m c 1 t) z h u w d).trans ?_
  unfold Cert.Spec.mixed
  refine Finset.sum_congr rfl fun k _ => ?_
  refine congrArg₂ (· * ·) ((token_block m c t 0 h w _).trans (congrArg (tokens m c) ?_)) ((weight_block m c t k d).trans (congrArg (weight m c) ?_))
  · funext a
    apply Fin.ext
    match a with
    | ⟨0, _⟩ => show t.val = win0_2.index t (0 : Fin 5) * 1 + 1 * z.val; rw [e6]; omega
    | ⟨1, _⟩ => show h.val * 32 + w.val = (win0_2.index t (1 : Fin 5) * 32 + 1 * h.val) * 32 + (win0_2.index t (3 : Fin 5) * 32 + 1 * w.val); rw [e7, e9]; omega
    | ⟨2, _⟩ => show u.val * 512 + k.val = (win0_2.index t (2 : Fin 5) * 2 + 1 * u.val) * 512 + k.val; rw [e8]; omega
  · funext a
    apply Fin.ext
    match a with
    | ⟨0, _⟩ => rfl
    | ⟨1, _⟩ => show d.val = win0_2.index t (4 : Fin 5) * 512 + 1 * d.val; rw [e10]; omega

/-- An index of the output array is in point t's block iff each coordinate is in the block's range on its axis. -/
theorem mem_blk (t : Fin cfg0.N) (i : S32x32x2x32x512.Idx) :
    i ∈ ((cfg0.win 2).blk t).view.set ↔ ∀ a : Fin 5, win0_2.index t a * S1x32x2x32x512.size a ≤ (i a).val
      ∧ (i a).val < win0_2.index t a * S1x32x2x32x512.size a + S1x32x2x32x512.size a := by
  show i ∈ ((View.whole main_v1).slice (win0_2.rect t)).set ↔ _
  rw [View.set_slice_whole, Rect.mem_set_unit]
  exact Iff.rfl

/-- The 32 blocks tile the output array: index (b, h, u, w, d) is in point b's block. -/
theorem cover (i : S32x32x2x32x512.Idx) : ∃ t : Fin cfg0.N, (cfg0.win 2).flush t = true ∧ i ∈ ((cfg0.win 2).blk t).view.set := by
  have h0 : (i 0).val < 32 := (i 0).isLt
  have h1 : (i 1).val < 32 := (i 1).isLt
  have h2 : (i 2).val < 2 := (i 2).isLt
  have h3 : (i 3).val < 32 := (i 3).isLt
  have h4 : (i 4).val < 512 := (i 4).isLt
  obtain ⟨-, -, -, -, -, -, e6, e7, e8, e9, e10⟩ := idx_facts (⟨(i 0).val, h0⟩ : Fin cfg0.N)
  refine ⟨(⟨(i 0).val, h0⟩ : Fin cfg0.N), flush0_2 _, ?_⟩
  rw [mem_blk]
  intro a
  match a with
  | ⟨0, _⟩ => show win0_2.index _ (0 : Fin 5) * 1 ≤ (i 0).val ∧ (i 0).val < win0_2.index _ (0 : Fin 5) * 1 + 1; rw [e6]; show (i 0).val * 1 ≤ (i 0).val ∧ (i 0).val < (i 0).val * 1 + 1; omega
  | ⟨1, _⟩ => show win0_2.index _ (1 : Fin 5) * 32 ≤ (i 1).val ∧ (i 1).val < win0_2.index _ (1 : Fin 5) * 32 + 32; rw [e7]; omega
  | ⟨2, _⟩ => show win0_2.index _ (2 : Fin 5) * 2 ≤ (i 2).val ∧ (i 2).val < win0_2.index _ (2 : Fin 5) * 2 + 2; rw [e8]; omega
  | ⟨3, _⟩ => show win0_2.index _ (3 : Fin 5) * 32 ≤ (i 3).val ∧ (i 3).val < win0_2.index _ (3 : Fin 5) * 32 + 32; rw [e9]; omega
  | ⟨4, _⟩ => show win0_2.index _ (4 : Fin 5) * 512 ≤ (i 4).val ∧ (i 4).val < win0_2.index _ (4 : Fin 5) * 512 + 512; rw [e10]; omega

/-- THE OUTPUT ARRAY after the run is the specification's grouped array. -/
theorem final (c : Dev nD) : (dats m 0 c).arrAt 2 cfg0.N = Cert.Spec.mixed (tokens m c) (weight m c) :=
  (dats m 0 c).arrAt_eq_of_cover 2 (Cert.Spec.mixed (tokens m c) (weight m c)) (fun t _ => flushed_eq m c t) cover

/-! ## The host's reshape after the call, and the run -/

/-- The result buffer after the host's reshape: the grouped array with (h, u, w) merged. -/
theorem tail_eq (c : Dev nD) :
    Pipeline.afterTail₀ cfgs (dats m) 0 (V0 m) [hostOps1] c main_v2 = Cert.Spec.result (tokens m c) (weight m c) := by
  unfold Pipeline.afterTail₀
  show StableHlo.after hostOps1 _ (Proc.devRef .tc main_v2) = _
  after_results
  unfold Cert.Spec.result
  exact congrArg (fun v => shapeCast Cert.Spec.Result v Cert.Spec.regroup)
    ((Pipeline.withArrays_arr spec0 launch0.win.arr_inj c _ _ 2).trans (final m c))

/-- THE KERNEL'S RUN, read: the result buffer ends at the specification of the two arguments, which end unchanged. -/
theorem run : θ_run defs (onTc (τ := τ) (main (F := Ideal))) ⟨m, fun _ => 0, ρ⟩ fun r => ∀ c : Dev nD,
      r.2.mem ((c : Thread nD τ).loc main_v2) = Cert.Spec.result (tokens m c) (weight m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.OutputArray

end
-- ==== Proof.ReferenceValue.lean ====
/-
  The reference, stage by stage, is the specification.

  The reference views the tokens as [32, 32, 32, 1024] (batch, patch row h, patch column w, channel), slices the lower and
  the upper half of the channels, gives each a unit axis after the rows, joins the two on that axis (so that axis is the
  half u), merges (h, u) into one axis q = 2·h + u, contracts the channel with the weight, and merges (q, w) into the
  output's row axis. Read at an index, every layout stage moves an entry without changing it, and the contraction is a
  sum over k < 512 of grouped token times weight: the specification's sum, term by term.
-/
import proofs.«101255_j66881230733751_1_alg».proof.Proof.Gen.ReferenceIdeal.Read
import proofs.«101255_j66881230733751_1_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

variable {F : FTy → Type} [FloatOps F]

/-- The tokens on the patch grid: (b, h, w, c) is token (b, 32·h + w, c). -/
theorem grid_apply (x0 : (⟨S32x1024x1024, .f32⟩ : BufTy).Contents (Elt F)) (b h w : Fin 32) (c : Fin 1024) :
    val_main_v0 (F := F) x0 (ix4 b h w c) = x0 (ix3 b (⟨h.val * 32 + w.val, by omega⟩ : Fin 1024) c) := by
  unfold val_main_v0
  exact shapeCast_apply x0 shapeCasts_S32x1024x1024_S32x32x32x1024 _ _ (by
    rw [Shape.rowMajor_val_three, Shape.rowMajor_val_four]
    show (b.val * 1024 + (h.val * 32 + w.val)) * 1024 + c.val = ((b.val * 32 + h.val) * 32 + w.val) * 1024 + c.val
    omega)

/-- The lower half of the channels. -/
theorem lower_apply (x0 : (⟨S32x1024x1024, .f32⟩ : BufTy).Contents (Elt F)) (b h w : Fin 32) (k : Fin 512) :
    val_main_v1 (F := F) x0 (ix4 b h w k) = val_main_v0 (F := F) x0 (ix4 b h w (⟨0 + k.val, by omega⟩ : Fin 1024)) := by
  unfold val_main_v1
  generalize val_main_v0 (F := F) x0 = y
  exact extractStridedSlice_apply ![0, 0, 0, 0] y slices_S32x32x32x1024_S32x32x32x512_0_0_0_0 _ _ (fun a => match a with
    | ⟨0, _⟩ => by show b.val = 0 + b.val; omega
    | ⟨1, _⟩ => by show h.val = 0 + h.val; omega
    | ⟨2, _⟩ => by show w.val = 0 + w.val; omega
    | ⟨3, _⟩ => by show 0 + k.val = 0 + k.val; rfl)

/-- The upper half of the channels. -/
theorem upper_apply (x0 : (⟨S32x1024x1024, .f32⟩ : BufTy).Contents (Elt F)) (b h w : Fin 32) (k : Fin 512) :
    val_main_v2 (F := F) x0 (ix4 b h w k) = val_main_v0 (F := F) x0 (ix4 b h w (⟨512 + k.val, by omega⟩ : Fin 1024)) := by
  unfold val_main_v2
  generalize val_main_v0 (F := F) x0 = y
  exact extractStridedSlice_apply ![0, 0, 0, 512] y slices_S32x32x32x1024_S32x32x32x512_0_0_0_512 _ _ (fun a => match a with
    | ⟨0, _⟩ => by show b.val = 0 + b.val; omega
    | ⟨1, _⟩ => by show h.val = 0 + h.val; omega
    | ⟨2, _⟩ => by show w.val = 0 + w.val; omega
    | ⟨3, _⟩ => by show 512 + k.val = 512 + k.val; rfl)

/-- A unit axis after the rows, lower half. -/
theorem lower_unit_apply (x0 : (⟨S32x1024x1024, .f32⟩ : BufTy).Contents (Elt F)) (b h : Fin 32) (z : Fin 1) (w : Fin 32) (k : Fin 512) :
    val_main_v3 (F := F) x0 (ix5 b h z w k) = val_main_v1 (F := F) x0 (ix4 b h w k) := by
  unfold val_main_v3
  generalize val_main_v1 (F := F) x0 = y
  exact broadcastInDim_apply _ bcast_S32x32x32x512_S32x32x1x32x512_0_1_3_4 y _ _ (fun a => match a with
    | ⟨0, _⟩ => by show b.val = if (32 : Nat) = 1 then 0 else b.val; rw [if_neg (by decide)]
    | ⟨1, _⟩ => by show h.val = if (32 : Nat) = 1 then 0 else h.val; rw [if_neg (by decide)]
    | ⟨2, _⟩ => by show w.val = if (32 : Nat) = 1 then 0 else w.val; rw [if_neg (by decide)]
    | ⟨3, _⟩ => by show k.val = if (512 : Nat) = 1 then 0 else k.val; rw [if_neg (by decide)])

/-- A unit axis after the rows, upper half. -/
theorem upper_unit_apply (x0 : (⟨S32x1024x1024, .f32⟩ : BufTy).Contents (Elt F)) (b h : Fin 32) (z : Fin 1) (w : Fin 32) (k : Fin 512) :
    val_main_v4 (F := F) x0 (ix5 b h z w k) = val_main_v2 (F := F) x0 (ix4 b h w k) := by
  unfold val_main_v4
  generalize val_main_v2 (F := F) x0 = y
  exact broadcastInDim_apply _ bcast_S32x32x32x512_S32x32x1x32x512_0_1_3_4 y _ _ (fun a => match a with
    | ⟨0, _⟩ => by show b.val = if (32 : Nat) = 1 then 0 else b.val; rw [if_neg (by decide)]
    | ⟨1, _⟩ => by show h.val = if (32 : Nat) = 1 then 0 else h.val; rw [if_neg (by decide)]
    | ⟨2, _⟩ => by show w.val = if (32 : Nat) = 1 then 0 else w.val; rw [if_neg (by decide)]
    | ⟨3, _⟩ => by show k.val = if (512 : Nat) = 1 then 0 else k.val; rw [if_neg (by decide)])

/-- The two halves joined on the unit axis: (b, h, u, w, k) is token (b, 32·h + w, 512·u + k). -/
theorem joined_apply (x0 : (⟨S32x1024x1024, .f32⟩ : BufTy).Contents (Elt F)) (b h : Fin 32) (u : Fin 2) (w : Fin 32) (k : Fin 512) :
    val_main_v5 (F := F) x0 (ix5 b h u w k)
      = x0 (ix3 b (⟨h.val * 32 + w.val, by omega⟩ : Fin 1024) (⟨u.val * 512 + k.val, by omega⟩ : Fin 1024)) := by
  unfold val_main_v5
  by_cases hu : u.val = 0
  · refine (concatenate_pair_apply_left (2 : Fin S32x32x2x32x512.rank) _ _ concatenates_S32x32x1x32x512_S32x32x1x32x512_S32x32x2x32x512_d2
      (ix5 b h u w k) rfl (ix5 b h (0 : Fin 1) w k) (fun a => match a with
        | ⟨0, _⟩ => rfl
        | ⟨1, _⟩ => rfl
        | ⟨2, _⟩ => by show (0 : Nat) = u.val; omega
        | ⟨3, _⟩ => rfl
        | ⟨4, _⟩ => rfl)).trans ?_
    rw [lower_unit_apply, lower_apply, grid_apply]
    exact congrArg x0 (funext fun a => Fin.ext (by
      match a with
      | ⟨0, _⟩ => rfl
      | ⟨1, _⟩ => rfl
      | ⟨2, _⟩ => show 0 + k.val = u.val * 512 + k.val; omega))
  · have hu1 : u.val = 1 := by omega
    refine (concatenate_pair_apply_right (2 : Fin S32x32x2x32x512.rank) _ _ concatenates_S32x32x1x32x512_S32x32x1x32x512_S32x32x2x32x512_d2
      (ix5 b h u w k) rfl rfl (ix5 b h (0 : Fin 1) w k) (fun a => match a with
        | ⟨0, _⟩ => fun _ => rfl
        | ⟨1, _⟩ => fun _ => rfl
        | ⟨2, _⟩ => fun hne => absurd rfl hne
        | ⟨3, _⟩ => fun _ => rfl
        | ⟨4, _⟩ => fun _ => rfl) (by show (0 : Nat) + 1 = u.val; omega)).trans ?_
    rw [upper_unit_apply, upper_apply, grid_apply]
    exact congrArg x0 (funext fun a => Fin.ext (by
      match a with
      | ⟨0, _⟩ => rfl
      | ⟨1, _⟩ => rfl
      | ⟨2, _⟩ => show 512 + k.val = u.val * 512 + k.val; omega))

/-- Rows and halves merged: q = 2·h + u. -/
theorem merged_apply (x0 : (⟨S32x1024x1024, .f32⟩ : BufTy).Contents (Elt F)) (b : Fin 32) (q : Fin 64) (w : Fin 32) (k : Fin 512) :
    val_main_v6 (F := F) x0 (ix4 b q w k)
      = val_main_v5 (F := F) x0 (ix5 b (⟨q.val / 2, by omega⟩ : Fin 32) (⟨q.val % 2, by omega⟩ : Fin 2) w k) := by
  unfold val_main_v6
  generalize val_main_v5 (F := F) x0 = y
  exact shapeCast_apply y shapeCasts_S32x32x2x32x512_S32x64x32x512 _ _ (by
    rw [Shape.rowMajor_val_five, Shape.rowMajor_val_four]
    show (((b.val * 32 + q.val / 2) * 2 + q.val % 2) * 32 + w.val) * 512 + k.val = ((b.val * 64 + q.val) * 32 + w.val) * 512 + k.val
    omega)

/-- The contraction with the weight, at the ideal instance: a sum over the channel. -/
theorem contracted_apply (x0 : (⟨S32x1024x1024, .f32⟩ : BufTy).Contents (Elt Ideal)) (x1 : (⟨S512x512, .f32⟩ : BufTy).Contents (Elt Ideal))
    (b : Fin 32) (q : Fin 64) (w : Fin 32) (d : Fin 512) :
    val_main_v7 (F := Ideal) x0 x1 (ix4 b q w d) = ∑ k : Fin 512, val_main_v6 (F := Ideal) x0 (ix4 b q w k) * x1 (ix2 k d) := by
  rw [val_main_v7_apply]
  refine Finset.sum_congr rfl fun k _ => ?_
  have el : lidx_main_v7 (ix4 b q w d) k = ix4 b q w k := funext fun a => Fin.ext (by
    match a with
    | ⟨0, _⟩ => rfl
    | ⟨1, _⟩ => rfl
    | ⟨2, _⟩ => rfl
    | ⟨3, _⟩ => rfl)
  have er : ridx_main_v7 (ix4 b q w d) k = ix2 k d := funext fun a => Fin.ext (by
    match a with
    | ⟨0, _⟩ => rfl
    | ⟨1, _⟩ => rfl)
  rw [el, er]

/-- The output's row axis: r = 32·q + w. -/
theorem rows_apply (x0 : (⟨S32x1024x1024, .f32⟩ : BufTy).Contents (Elt F)) (x1 : (⟨S512x512, .f32⟩ : BufTy).Contents (Elt F))
    (b : Fin 32) (r : Fin 2048) (d : Fin 512) :
    val_main_v8 (F := F) x0 x1 (ix3 b r d)
      = val_main_v7 (F := F) x0 x1 (ix4 b (⟨r.val / 32, by omega⟩ : Fin 64) (⟨r.val % 32, by omega⟩ : Fin 32) d) := by
  unfold val_main_v8
  generalize val_main_v7 (F := F) x0 x1 = y
  exact shapeCast_apply y shapeCasts_S32x64x32x512_S32x2048x512 _ _ (by
    rw [Shape.rowMajor_val_four, Shape.rowMajor_val_three]
    show ((b.val * 64 + r.val / 32) * 32 + r.val % 32) * 512 + d.val = (b.val * 2048 + r.val) * 512 + d.val
    omega)

/-- THE REFERENCE'S RESULT IS THE SPECIFICATION, entry by entry. -/
theorem result_eq (x0 : (⟨S32x1024x1024, .f32⟩ : BufTy).Contents (Elt Ideal)) (x1 : (⟨S512x512, .f32⟩ : BufTy).Contents (Elt Ideal)) :
    val_main_v8 (F := Ideal) x0 x1 = Cert.Spec.result x0 x1 := by
  funext i
  obtain ⟨b, r, d, rfl⟩ : ∃ (b : Fin 32) (r : Fin 2048) (d : Fin 512), i = ix3 b r d := ⟨i 0, i 1, i 2, eq_ix3 i⟩
  rw [rows_apply, contracted_apply]
  unfold Cert.Spec.result
  refine Eq.trans ?_ (shapeCast_apply (Cert.Spec.mixed x0 x1) Cert.Spec.regroup (ix3 b r d)
    (ix5 b (⟨r.val / 32 / 2, by omega⟩ : Fin 32) (⟨r.val / 32 % 2, by omega⟩ : Fin 2) (⟨r.val % 32, by omega⟩ : Fin 32) d) (by
      rw [Shape.rowMajor_val_five, Shape.rowMajor_val_three]
      show (((b.val * 32 + r.val / 32 / 2) * 2 + r.val / 32 % 2) * 32 + r.val % 32) * 512 + d.val = (b.val * 2048 + r.val) * 512 + d.val
      omega)).symm
  unfold Cert.Spec.mixed
  refine Finset.sum_congr rfl fun k _ => ?_
  rw [merged_apply, joined_apply]

end Cert.ReferenceIdeal.RefValue

end
-- ==== Proof.lean ====
/-
  The kernel and its reference compute the same interleaved half projections.

  Tokens x : [32, 1024, 1024] (batch, position on a 32 × 32 patch grid, channel) and a weight W : [512, 512]. Both programs
  split the channels into a lower and an upper half, project each half by W, and lay the two projections out row by row
  of the patch grid, lower half first: output row 64·h + 32·u + w of batch b holds, at output channel d,

      ∑ k < 512,  x (b, 32·h + w, 512·u + k) · W (k, d)                       (Proof/Spec.lean).

  The kernel does it one batch element per grid point: it multiplies the two halves of the point's token block with the
  weight (the change to bf16 before each product is the identity on extended reals; Proof/HalfProduct.lean), stores the
  products row by row into the two slots of the output block (Proof/RowStores.lean), and the host merges the block's
  axes afterwards (Proof/OutputArray.lean). The reference slices, joins and reshapes on the host and contracts once
  (Proof/ReferenceValue.lean). Both sums run over the same index in the same order, so the equality needs no
  finiteness of the inputs: only the layout stages are moved through.

  The three frames: the kernel's two are the generated frames; the reference's is its generated run with the result
  dropped. The idealization rewrote no operation, so nothing is owed for it.
-/
import proofs.«101255_j66881230733751_1_alg».proof.Defs
import proofs.«101255_j66881230733751_1_alg».proof.Proof.Gen.Kernel
import proofs.«101255_j66881230733751_1_alg».proof.Proof.Gen.Kernel.Skeleton
import proofs.«101255_j66881230733751_1_alg».proof.Proof.Gen.Kernel.Launch
import proofs.«101255_j66881230733751_1_alg».proof.Proof.Gen.Kernel.Points
import proofs.«101255_j66881230733751_1_alg».proof.Proof.Gen.Kernel.Frame
import proofs.«101255_j66881230733751_1_alg».proof.Proof.Gen.KernelIdeal
import proofs.«101255_j66881230733751_1_alg».proof.Proof.Gen.KernelIdeal.Skeleton
import proofs.«101255_j66881230733751_1_alg».proof.Proof.Gen.KernelIdeal.Launch
import proofs.«101255_j66881230733751_1_alg».proof.Proof.Gen.KernelIdeal.Points
import proofs.«101255_j66881230733751_1_alg».proof.Proof.Gen.KernelIdeal.Frame
import proofs.«101255_j66881230733751_1_alg».proof.Proof.Gen.ReferenceIdeal
import proofs.«101255_j66881230733751_1_alg».proof.Proof.Gen.Pre_finite_inputs
import proofs.«101255_j66881230733751_1_alg».proof.Proof.Gen.ReferenceIdeal.Run
import proofs.«101255_j66881230733751_1_alg».proof.Proof.Gen.ReferenceIdeal.Read
import proofs.«101255_j66881230733751_1_alg».proof.Proof.Spec
import proofs.«101255_j66881230733751_1_alg».proof.Proof.OutputArray
import proofs.«101255_j66881230733751_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result buffer at the specification of the (agreeing) arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.OutputArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
